-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S64 : Shape := ⟨1, ![64]⟩
abbrev S64x64 : Shape := ⟨2, ![64, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_arg5 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  main_v28

def fn {F : FTy → Type} [FloatOps F] (main_arg0 : FVec F S4x4096x64 .f32) (main_arg1 : FVec F S64 .f32) (main_arg2 : FVec F S64 .f32) (main_arg3 : FVec F S64x64 .f32) (main_arg4 : FVec F S64x64 .f32) (main_arg5 : FVec F S64x64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_v13 main_v16
-- ==== Kernel.lean ====
abbrev S4x4096x64 : Shape := ⟨3, ![4, 4096, 64]⟩
abbrev S64 : Shape := ⟨1, ![64]⟩
abbrev S64x64 : Shape := ⟨2, ![64, 64]⟩
abbrev S_ : Shape := ⟨0, ![]⟩
abbrev S64x64x1 : Shape := ⟨3, ![64, 64, 1]⟩
abbrev S1x64x64 : Shape := ⟨3, ![1, 64, 64]⟩
abbrev S64x64x64 : Shape := ⟨3, ![64, 64, 64]⟩
abbrev S64x4096 : Shape := ⟨2, ![64, 4096]⟩
abbrev S1x4096 : Shape := ⟨2, ![1, 4096]⟩
abbrev S1x64 : Shape := ⟨2, ![1, 64]⟩
abbrev S4x4096x4096 : Shape := ⟨3, ![4, 4096, 4096]⟩
abbrev S1x512x64 : Shape := ⟨3, ![1, 512, 64]⟩
abbrev S1x512x4096 : Shape := ⟨3, ![1, 512, 4096]⟩
abbrev S512x64 : Shape := ⟨2, ![512, 64]⟩
abbrev S512 : Shape := ⟨1, ![512]⟩
abbrev S512x1 : Shape := ⟨2, ![512, 1]⟩
abbrev S512x4096 : Shape := ⟨2, ![512, 4096]⟩

abbrev nBuf : Space → Nat
  | .hbm => 24
  | .vmem => 8
  | .smem => 0
  | _ => 0

abbrev bufTy : (tb : Table) → Fin (tcTables nBuf tb) → BufTy
  | .hbm, ⟨0, _⟩ => ⟨S4x4096x64, .f32⟩
  | .hbm, ⟨1, _⟩ => ⟨S64, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .i32⟩
  | .hbm, ⟨7, _⟩ => ⟨S64x64, .i32⟩
  | .hbm, ⟨8, _⟩ => ⟨S_, .i32⟩
  | .hbm, ⟨9, _⟩ => ⟨S64x64, .i32⟩
  | .hbm, ⟨10, _⟩ => ⟨S64x64, .i32⟩
  | .hbm, ⟨11, _⟩ => ⟨S64x64, .i1⟩
  | .hbm, ⟨12, _⟩ => ⟨S64x64, .f32⟩
  | .hbm, ⟨13, _⟩ => ⟨S64x64x1, .f32⟩
  | .hbm, ⟨14, _⟩ => ⟨S1x64x64, .f32⟩
  | .hbm, ⟨15, _⟩ => ⟨S64x64x64, .f32⟩
  | .hbm, ⟨16, _⟩ => ⟨S64x64x64, .f32⟩
  | .hbm, ⟨17, _⟩ => ⟨S64x64x64, .f32⟩
  | .hbm, ⟨18, _⟩ => ⟨S64x4096, .f32⟩
  | .hbm, ⟨19, _⟩ => ⟨S64x64, .f32⟩
  | .hbm, ⟨20, _⟩ => ⟨S1x4096, .f32⟩
  | .hbm, ⟨21, _⟩ => ⟨S1x64, .f32⟩
  | .hbm, ⟨22, _⟩ => ⟨S1x64, .f32⟩
  | .hbm, ⟨23, _⟩ => ⟨S4x4096x4096, .f32⟩
  | .local _ .vmem, ⟨0, _⟩ => ⟨S1x512x64, .f32⟩
  | .local _ .vmem, ⟨1, _⟩ => ⟨S1x512x64, .f32⟩
  | .local _ .vmem, ⟨2, _⟩ => ⟨S1x64, .f32⟩
  | .local _ .vmem, ⟨3, _⟩ => ⟨S1x64, .f32⟩
  | .local _ .vmem, ⟨4, _⟩ => ⟨S64x4096, .f32⟩
  | .local _ .vmem, ⟨5, _⟩ => ⟨S1x4096, .f32⟩
  | .local _ .vmem, ⟨6, _⟩ => ⟨S1x512x4096, .f32⟩
  | .local _ .vmem, ⟨7, _⟩ => ⟨S1x512x4096, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  bcast_S64x64_S1x64x64_1_2 : S64x64.BroadcastsInDim S1x64x64 (![1, 2] : Fin 2 → Fin S1x64x64.rank)
  bcast_S64x64x1_S64x64x64_0_1_2 : S64x64x1.BroadcastsInDim S64x64x64 (![0, 1, 2] : Fin 3 → Fin S64x64x64.rank)
  bcast_S1x64x64_S64x64x64_0_1_2 : S1x64x64.BroadcastsInDim S64x64x64 (![0, 1, 2] : Fin 3 → Fin S64x64x64.rank)
  shapeCasts_S64x64x64_S64x4096 : S64x64x64.ShapeCasts S64x4096
  shapeCasts_S64x64_S1x4096 : S64x64.ShapeCasts S1x4096
  shapeCasts_S64_S1x64 : S64.ShapeCasts S1x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  reduces_S512x64_S512 : S512x64.Reduces [1] S512
  shapeCasts_S512_S512x1 : S512.ShapeCasts S512x1
  broadcasts_S512x1_S512x64 : S512x1.Broadcasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  shapeCasts_S512x4096_S1x512x4096 : S512x4096.ShapeCasts S1x512x4096
  dot_S512x64_S64x4096_S512x4096_1_0_0_1_n_n_wf : DotDims.WF S512x64 S64x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S4x4096x64.size a
  hwx0_0 : ∀ i : grid0.Coords, EltTy.bits .f32 = 32 ∨ (Rect.block (s := S4x4096x64) S1x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S64x4096.size a
  hwx0_3 : ∀ i : grid0.Coords, EltTy.bits .f32 = 32 ∨ (Rect.block (s := S64x4096) S64x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x4096.size a ≤ S4x4096x4096.size a
  hwx0_5 : ∀ i : grid0.Coords, EltTy.bits .f32 = 32 ∨ (Rect.block (s := S4x4096x4096) S1x512x4096.size (cc0_transform_5 i) (hinb0_5 i)).WholeWords (EltTy.packing .f32)

variable [Facts₀]

def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S64x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x512x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x64 : Shape := ⟨3, ![4, 4096, 64]⟩
abbrev S64 : Shape := ⟨1, ![64]⟩
abbrev S64x64 : Shape := ⟨2, ![64, 64]⟩
abbrev S_ : Shape := ⟨0, ![]⟩
abbrev S4x4096 : Shape := ⟨2, ![4, 4096]⟩
abbrev S4x4096x1 : Shape := ⟨3, ![4, 4096, 1]⟩
abbrev S1x1x64 : Shape := ⟨3, ![1, 1, 64]⟩
abbrev S4x4096x64x1 : Shape := ⟨4, ![4, 4096, 64, 1]⟩
abbrev S1x1x64x64 : Shape := ⟨4, ![1, 1, 64, 64]⟩
abbrev S4x4096x64x64 : Shape := ⟨4, ![4, 4096, 64, 64]⟩
abbrev S4x4096x4096 : Shape := ⟨3, ![4, 4096, 4096]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S64, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x64, .f32⟩
  | .hbm, ⟨13, _⟩ => ⟨S4x4096x64, .f32⟩
  | .hbm, ⟨14, _⟩ => ⟨S4x4096x64, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x64, .f32⟩
  | .hbm, ⟨22, _⟩ => ⟨S4x4096x64, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x64, .f32⟩
  | .hbm, ⟨28, _⟩ => ⟨S4x4096x64, .f32⟩
  | .hbm, ⟨29, _⟩ => ⟨S1x1x64, .f32⟩
  | .hbm, ⟨30, _⟩ => ⟨S4x4096x64, .f32⟩
  | .hbm, ⟨31, _⟩ => ⟨S4x4096x64, .f32⟩
  | .hbm, ⟨32, _⟩ => ⟨S1x1x64, .f32⟩
  | .hbm, ⟨33, _⟩ => ⟨S4x4096x64, .f32⟩
  | .hbm, ⟨34, _⟩ => ⟨S4x4096x64, .f32⟩
  | .hbm, ⟨35, _⟩ => ⟨S4x4096x64x1, .f32⟩
  | .hbm, ⟨36, _⟩ => ⟨S1x1x64x64, .f32⟩
  | .hbm, ⟨37, _⟩ => ⟨S4x4096x64x64, .f32⟩
  | .hbm, ⟨38, _⟩ => ⟨S4x4096x64x64, .f32⟩
  | .hbm, ⟨39, _⟩ => ⟨S4x4096x64x64, .f32⟩
  | .hbm, ⟨40, _⟩ => ⟨S64x64, .f32⟩
  | .hbm, ⟨41, _⟩ => ⟨S1x1x64x64, .f32⟩
  | .hbm, ⟨42, _⟩ => ⟨S4x4096x64x64, .f32⟩
  | .hbm, ⟨43, _⟩ => ⟨S4x4096x64x64, .f32⟩
  | .hbm, ⟨44, _⟩ => ⟨S4x4096x4096, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  reducesTo_S4x4096x64_S4x4096_d2 : S4x4096x64.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x64_0_1_2 : S4x4096x1.BroadcastsInDim S4x4096x64 (![0, 1, 2] : Fin 3 → Fin S4x4096x64.rank)
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S4x4096x64_S4x4096x64x1_0_1_2 : S4x4096x64.BroadcastsInDim S4x4096x64x1 (![0, 1, 2] : Fin 3 → Fin S4x4096x64x1.rank)
  bcast_S64x64_S1x1x64x64_2_3 : S64x64.BroadcastsInDim S1x1x64x64 (![2, 3] : Fin 2 → Fin S1x1x64x64.rank)
  bcast_S4x4096x64x1_S4x4096x64x64_0_1_2_3 : S4x4096x64x1.BroadcastsInDim S4x4096x64x64 (![0, 1, 2, 3] : Fin 4 → Fin S4x4096x64x64.rank)
  bcast_S1x1x64x64_S4x4096x64x64_0_1_2_3 : S1x1x64x64.BroadcastsInDim S4x4096x64x64 (![0, 1, 2, 3] : Fin 4 → Fin S4x4096x64x64.rank)
  shapeCasts_S4x4096x64x64_S4x4096x4096 : S4x4096x64x64.ShapeCasts S4x4096x4096

variable [Facts₀]

class Facts : Prop extends Facts₀ where

variable [Facts]
-- ==== Proof.RowNorm.lean ====
/-
  What both programs compute, as one function of the argument arrays.

  For a row `x[b, n, ·]` of 64 features: its mean `μ = (∑ x) / 64`, the centred entries `x - μ`, the
  variance `σ² = (∑ (x - μ)²) / 64`, and the normalised, affinely rescaled entry
  `(x_f - μ) · (σ² + ε)^(-1/2) · γ_f + β_f` (ε the single-precision word nearest 1e-5, the same word in
  both programs, so never evaluated). The output at `(b, n, 64·f + e)` is that entry of feature `f`
  times `w[f, e]`, plus `pb[f, e] + pe[f, e]`.

  One program multiplies directly; the other contracts the normalised row against a matrix that is
  `w[f, e]` on the diagonal block of feature `f` and zero elsewhere, written as an indicator times
  `w`. The law that joins them is `sum_diag`: a sum against an indicator keeps one term. On the
  extended reals it needs no finiteness: `0 · y = 0` and `a · 0 = 0` for every `a` and `y`, the
  infinities included, so the other 63 terms vanish whatever the row holds.
-/
import Idealize.ShloMosaic.PureOps.Ideal
import Idealize.ShloMosaic.PureOps.Ideal.Laws
import Idealize.ShloMosaic.Lib.ValueIdx

noncomputable section

namespace Cert.FeatureEmbed

open Idealize.ShloMosaic Idealize.ShloMosaic.ValueIdx

/-- The divisor 64 and the variance offset ε, as the extended reals their words denote. -/
abbrev c64 : EReal := Ideal.ofBits .f32 0x42800000#32
abbrev eps : EReal := Ideal.ofBits .f32 0x3727C5AC#32

/-- The mean of a row of 64 entries. -/
def rowMean (row : Fin 64 → EReal) : EReal := Ideal.div (∑ k : Fin 64, row k) c64

/-- An entry minus the row's mean. -/
def centred (row : Fin 64 → EReal) (k : Fin 64) : EReal := row k - rowMean row

/-- The mean of the squared centred entries. -/
def rowVar (row : Fin 64 → EReal) : EReal := Ideal.div (∑ k : Fin 64, centred row k * centred row k) c64

/-- The normalised entry of feature `f`, rescaled by `γ` and shifted by `β`. -/
def normed (row γ β : Fin 64 → EReal) (f : Fin 64) : EReal :=
  centred row f * Ideal.rsqrt (rowVar row + eps) * γ f + β f

/-- A sum over features against an indicator of feature `f` (times any `w`) keeps the term of `f` alone:
    off `f` the factor is `0 · w = 0` and `a · 0 = 0` on every extended real. -/
theorem sum_diag (a d : Fin 64 → EReal) (f : Fin 64) (w : EReal)
    (hd : ∀ k, d k = if k = f then 1 else 0) :
    ∑ k : Fin 64, a k * (d k * w) = a f * w := by
  rw [Finset.sum_eq_single f]
  · rw [hd f, if_pos rfl, one_mul]
  · intro k _ hk
    rw [hd k, if_neg hk, zero_mul, mul_zero]
  · intro h; exact absurd (Finset.mem_univ f) h

/-- The feature and the embedding slot a flattened output column belongs to: column `64·f + e`. -/
abbrev featOf (j : Fin 4096) : Fin 64 := ⟨j.val / 64, by have := j.isLt; omega⟩
abbrev slotOf (j : Fin 4096) : Fin 64 := ⟨j.val % 64, by omega⟩

/-- The whole output as one function of the six arguments, index by index. -/
def embed (x : (⟨3, ![4, 4096, 64]⟩ : Shape).Idx → EReal) (γ β : (⟨1, ![64]⟩ : Shape).Idx → EReal)
    (w pb pe : (⟨2, ![64, 64]⟩ : Shape).Idx → EReal) : (⟨3, ![4, 4096, 4096]⟩ : Shape).Idx → EReal := fun i =>
  normed (fun k => x (ix3 (i 0) (i 1) k)) (fun k => γ (ix1 k)) (fun k => β (ix1 k)) (featOf (i 2))
      * w (ix2 (featOf (i 2)) (slotOf (i 2)))
    + (pb (ix2 (featOf (i 2)) (slotOf (i 2))) + pe (ix2 (featOf (i 2)) (slotOf (i 2))))

end Cert.FeatureEmbed

end
-- ==== Proof.Reference.lean ====
/-
  The reference program computes `embed`.

  Its host operations are read one at a time (the generated stage lemmas): the row sum over the last axis
  with initial value `0`, kept as a unit last axis and divided by 64 — the row's mean; the entry minus the
  mean broadcast back — the centred entry; the same sum of its squares divided by 64 — the variance; the
  reciprocal square root of variance plus ε, broadcast, times the centred entry, times γ, plus β — the
  normalised entry. The last stretch puts feature `f`'s entry beside `w[f, e]` and `pb[f, e] + pe[f, e]` on a
  four-axis array `(b, n, f, e)` and flattens its last two axes: output column `c` is `(c / 64, c % 64)`.
-/
import proofs.«101138_j5446018531779_1_alg».proof.Proof.Gen.ReferenceIdeal.Read
import proofs.«101138_j5446018531779_1_alg».proof.Proof.RowNorm

noncomputable section

namespace Cert.FeatureEmbed.Reference

open Cert.ReferenceIdeal Cert.ReferenceIdeal.Gen Cert.ReferenceIdeal.Read
open Idealize.ShloMosaic Idealize.ShloMosaic.ValueIdx Cert.FeatureEmbed

variable (x0 : (⟨S4x4096x64, .f32⟩ : BufTy).Contents (Elt Ideal))
variable (x1 x2 : (⟨S64, .f32⟩ : BufTy).Contents (Elt Ideal))
variable (x3 x4 x5 : (⟨S64x64, .f32⟩ : BufTy).Contents (Elt Ideal))

/-- Row `(b, n)` of the first argument. -/
abbrev rowAt (b : Fin 4) (n : Fin 4096) : Fin 64 → EReal := fun k => x0 (ix3 b n k)

/-- The kept-axis quotient of the row sum by 64 is the row's mean. -/
theorem mean_at (b : Fin 4) (n : Fin 4096) (u : Fin 1) :
    val_main_v3 (F := Ideal) x0 (ix3 b n u) = rowMean (rowAt x0 b n) := by
  rw [val_main_v3_apply, val_main_v1_apply, val_main_v0_apply, val_main_v2_apply, val_main_cst_0_apply,
    val_main_cst_apply]
  have hidx : ∀ k : Fin 64, idx_main_v0 (idx_main_v1 (ix3 b n u)) k = ix3 b n k := fun k =>
    funext fun a => Fin.ext (by match a with | ⟨0, _⟩ => rfl | ⟨1, _⟩ => rfl | ⟨2, _⟩ => rfl)
  simp only [hidx, Ideal.hostDivf_def, Ideal.ofBits_def, Ideal.ofBits_zero_f32, zero_add]
  rfl

/-- The entry minus the broadcast mean is the centred entry (the program computes it twice, for the
    variance and for the product; both stages read the same). -/
theorem centred_at (b : Fin 4) (n : Fin 4096) (k : Fin 64) :
    val_main_v5 (F := Ideal) x0 (ix3 b n k) = centred (rowAt x0 b n) k := by
  rw [val_main_v5_apply, val_main_v4_apply]
  have hidx : idx_main_v4 (ix3 b n k) = ix3 b n (⟨0, Nat.one_pos⟩ : Fin 1) :=
    funext fun a => Fin.ext (by match a with | ⟨0, _⟩ => rfl | ⟨1, _⟩ => rfl | ⟨2, _⟩ => rfl)
  rw [hidx, mean_at]
  rfl

theorem centred_at' (b : Fin 4) (n : Fin 4096) (k : Fin 64) :
    val_main_v12 (F := Ideal) x0 (ix3 b n k) = centred (rowAt x0 b n) k := by
  rw [val_main_v12_apply, val_main_v11_apply]
  have hidx : idx_main_v11 (ix3 b n k) = ix3 b n (⟨0, Nat.one_pos⟩ : Fin 1) :=
    funext fun a => Fin.ext (by match a with | ⟨0, _⟩ => rfl | ⟨1, _⟩ => rfl | ⟨2, _⟩ => rfl)
  rw [hidx, mean_at]
  rfl

/-- The kept-axis quotient by 64 of the sum of squared centred entries is the variance. -/
theorem var_at (b : Fin 4) (n : Fin 4096) (u : Fin 1) :
    val_main_v10 (F := Ideal) x0 (ix3 b n u) = rowVar (rowAt x0 b n) := by
  rw [val_main_v10_apply, val_main_v8_apply, val_main_v7_apply, val_main_v9_apply, val_main_cst_2_apply,
    val_main_cst_1_apply]
  have hidx : ∀ k : Fin 64, idx_main_v7 (idx_main_v8 (ix3 b n u)) k = ix3 b n k := fun k =>
    funext fun a => Fin.ext (by match a with | ⟨0, _⟩ => rfl | ⟨1, _⟩ => rfl | ⟨2, _⟩ => rfl)
  simp only [hidx, val_main_v6_apply, centred_at x0, Ideal.hostDivf_def, Ideal.mulf_def, Ideal.ofBits_def,
    Ideal.ofBits_zero_f32, zero_add]
  rfl

/-- The normalised, rescaled and shifted entry of feature `f` of row `(b, n)`. -/
theorem normed_at (b : Fin 4) (n : Fin 4096) (f : Fin 64) :
    val_main_v23 (F := Ideal) x0 x1 x2 (ix3 b n f)
      = normed (rowAt x0 b n) (fun k => x1 (ix1 k)) (fun k => x2 (ix1 k)) f := by
  rw [val_main_v23_apply, val_main_v20_apply, val_main_v22_apply, val_main_v21_apply, val_main_v17_apply,
    val_main_v19_apply, val_main_v18_apply, val_main_v16_apply, val_main_v15_apply, val_main_v14_apply,
    val_main_v13_apply, val_main_cst_3_apply]
  have h16 : idx_main_v16 (ix3 b n f) = ix3 b n (⟨0, Nat.one_pos⟩ : Fin 1) :=
    funext fun a => Fin.ext (by match a with | ⟨0, _⟩ => rfl | ⟨1, _⟩ => rfl | ⟨2, _⟩ => rfl)
  have h18 : idx_main_v18 (idx_main_v19 (ix3 b n f)) = ix1 f :=
    funext fun a => Fin.ext (by match a with | ⟨0, _⟩ => rfl)
  have h21 : idx_main_v21 (idx_main_v22 (ix3 b n f)) = ix1 f :=
    funext fun a => Fin.ext (by match a with | ⟨0, _⟩ => rfl)
  rw [h16, h18, h21, var_at, centred_at']
  rfl

/-- The reference's result, stage by stage, is `embed` of its six arguments. -/
theorem result_eq : val_main_v33 (F := Ideal) x0 x1 x2 x3 x4 x5 = embed x0 x1 x2 x3 x4 x5 := by
  funext i
  rw [val_main_v33_apply, val_main_v32_apply, val_main_v28_apply, val_main_v26_apply, val_main_v24_apply,
    val_main_v27_apply, val_main_v25_apply, val_main_v31_apply, val_main_v30_apply, val_main_v29_apply]
  have h33 : idx_main_v33 i = ix4 (i 0) (i 1) (featOf (i 2)) (slotOf (i 2)) := funext fun a => Fin.ext (by
    have h0 : (i 0).val < 4 := (i 0).isLt
    have h1 : (i 1).val < 4096 := (i 1).isLt
    have h2 : (i 2).val < 4096 := (i 2).isLt
    match a with
    | ⟨0, _⟩ => show (((i 0).val * 4096 + (i 1).val) * 4096 + (i 2).val) / 16777216 = (i 0).val; omega
    | ⟨1, _⟩ => show (((i 0).val * 4096 + (i 1).val) * 4096 + (i 2).val) / 4096 % 4096 = (i 1).val; omega
    | ⟨2, _⟩ => show (((i 0).val * 4096 + (i 1).val) * 4096 + (i 2).val) / 64 % 64 = (i 2).val / 64; omega
    | ⟨3, _⟩ => show (((i 0).val * 4096 + (i 1).val) * 4096 + (i 2).val) % 64 = (i 2).val % 64; omega)
  rw [h33]
  have h24 : idx_main_v24 (idx_main_v26 (ix4 (i 0) (i 1) (featOf (i 2)) (slotOf (i 2))))
      = ix3 (i 0) (i 1) (featOf (i 2)) :=
    funext fun a => Fin.ext (by match a with | ⟨0, _⟩ => rfl | ⟨1, _⟩ => rfl | ⟨2, _⟩ => rfl)
  have h25 : idx_main_v25 (idx_main_v27 (ix4 (i 0) (i 1) (featOf (i 2)) (slotOf (i 2))))
      = ix2 (featOf (i 2)) (slotOf (i 2)) :=
    funext fun a => Fin.ext (by match a with | ⟨0, _⟩ => rfl | ⟨1, _⟩ => rfl)
  have h30 : idx_main_v30 (idx_main_v31 (ix4 (i 0) (i 1) (featOf (i 2)) (slotOf (i 2))))
      = ix2 (featOf (i 2)) (slotOf (i 2)) :=
    funext fun a => Fin.ext (by match a with | ⟨0, _⟩ => rfl | ⟨1, _⟩ => rfl)
  rw [h24, h25, h30]
  exact congrArg (fun z : EReal => z * x3 (ix2 (featOf (i 2)) (slotOf (i 2)))
      + (x4 (ix2 (featOf (i 2)) (slotOf (i 2))) + x5 (ix2 (featOf (i 2)) (slotOf (i 2)))))
    (normed_at x0 x1 x2 (i 0) (i 1) (featOf (i 2)))

end Cert.FeatureEmbed.Reference

end
-- ==== Proof.LibKeepdims.lean ====
/-
  Two layout readings that every row statistic kept as a column needs: a vector of `a` entries
  viewed as an `a × 1` column reads its entry `i` at `(i, 0)`, and an `a × 1` column broadcast to
  `a × b` reads, at `(p, c)`, the column's entry of row `p` — the column is repeated along the
  second axis. Both are stated over literal shapes with the indices written by coordinates.
-/
import Idealize.ShloMosaic.Lib.ValueIdx
import Idealize.ShloMosaic.Lib.Pipeline.Value

namespace Cert.LibKeepdims

open Idealize.ShloMosaic Idealize.ShloMosaic.ValueIdx

variable {α : Type}

/-- An `[a]` vector cast to an `[a, 1]` column reads, at `(i, u)`, the vector at `i`, whatever the unit
    coordinate `u`: both indices sit at row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`: the first axis is
    carried (or, when `a = 1`, is the unit axis read at `0`, which is `p`), the unit second axis is read at `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibKeepdims
-- ==== Proof.BodyOps.lean ====
/-
  The kernel body's result at an entry of its output block, as a function of the five input blocks.

  The body takes a `512 × 64` block of rows, normalises each row (lane sums over the 64 features for the mean
  and the variance, each kept as a `512 × 1` column and broadcast back), rescales by the γ row and shifts by the
  β row, and multiplies the `512 × 64` result into the `64 × 4096` matrix block with a zero accumulator; the bias
  row is added to every row of the product. The narrowing of both factors before the product is the identity
  on extended reals. So entry `(r, c)` of the block is `∑_k normed(row r)_k · M[k, c] + bias[c]`.
-/
import proofs.«101138_j5446018531779_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«101138_j5446018531779_1_alg».proof.Proof.LibKeepdims
import proofs.«101138_j5446018531779_1_alg».proof.Proof.RowNorm

noncomputable section

namespace Cert.FeatureEmbed.Body

open Cert.KernelIdeal Cert.KernelIdeal.Gen
open Idealize.ShloMosaic Idealize.ShloMosaic.ValueIdx Cert.FeatureEmbed Cert.LibKeepdims

/-! ## The lane sum and the product, read at an index -/

/-- A sum over the 64 lanes of a `512 × 64` vector, at row `r`, is the sum of that row's entries. -/
theorem laneSum_at (v : FVec Ideal S512x64 .f32) (h : S512x64.Reduces [1] S512) (hφ : FKind.Formats .f32)
    (hacc : (0x00000000#32 : BitVec 32) = FKind.add.neutral .f32 hφ) (r : Fin 512) :
    multiReduction .add [1] S512 v 0x00000000#32 h hφ hacc (ix1 r) = ∑ k : Fin 64, v (ix2 r k) :=
  (Ideal.multiReduction_add_single v 0x00000000#32 h hφ hacc (ix1 r)).trans
    (Finset.sum_congr rfl fun k _ => congrArg v (funext fun a => Fin.ext (by
      match a with | ⟨0, _⟩ => rfl | ⟨1, _⟩ => rfl)))

/-- The product's operand indices at output entry `i` and contraction position `q`, axis by axis: the left
    operand is read at (row of `i`, `q`), the right at (`q`, column of `i`). -/
theorem lhs_axis0 (i : S512x4096.Idx) (q : dot_S512x64_S64x4096_S512x4096_1_0_0_1_n_n.contr.Idx) :
    (dot_S512x64_S64x4096_S512x4096_1_0_0_1_n_n.lhsIdx i q 0).val = (i 0).val := by
  unfold DotDims.lhsIdx
  rw [dif_neg (show ¬(0 : Fin S512x64.rank) ∈ dot_S512x64_S64x4096_S512x4096_1_0_0_1_n_n.lhsBatch by decide),
    dif_pos (show (0 : Fin S512x64.rank) ∈ dot_S512x64_S64x4096_S512x4096_1_0_0_1_n_n.lhsNonContracting by decide)]
  rfl
theorem lhs_axis1 (i : S512x4096.Idx) (q : dot_S512x64_S64x4096_S512x4096_1_0_0_1_n_n.contr.Idx) :
    (dot_S512x64_S64x4096_S512x4096_1_0_0_1_n_n.lhsIdx i q 1).val = (q ⟨0, by decide⟩).val :=
  dot_S512x64_S64x4096_S512x4096_1_0_0_1_n_n.lhsIdx_val_of_single rfl i q
theorem rhs_axis0 (i : S512x4096.Idx) (q : dot_S512x64_S64x4096_S512x4096_1_0_0_1_n_n.contr.Idx) :
    (dot_S512x64_S64x4096_S512x4096_1_0_0_1_n_n.rhsIdx i q 0).val = (q ⟨0, by decide⟩).val :=
  dot_S512x64_S64x4096_S512x4096_1_0_0_1_n_n.rhsIdx_val_of_single rfl i q
theorem rhs_axis1 (i : S512x4096.Idx) (q : dot_S512x64_S64x4096_S512x4096_1_0_0_1_n_n.contr.Idx) :
    (dot_S512x64_S64x4096_S512x4096_1_0_0_1_n_n.rhsIdx i q 1).val = (i 1).val := by
  unfold DotDims.rhsIdx
  rw [dif_neg (show ¬(1 : Fin S64x4096.rank) ∈ dot_S512x64_S64x4096_S512x4096_1_0_0_1_n_n.rhsBatch by decide),
    dif_pos (show (1 : Fin S64x4096.rank) ∈ dot_S512x64_S64x4096_S512x4096_1_0_0_1_n_n.rhsNonContracting by decide)]
  rfl

/-- The product into a zero accumulator, at `(r, c)`: the sum over the 64 shared positions of left `(r, k)` times
    right `(k, c)`. -/
theorem product_at {φ₁ φ₂ : FTy} (a : FVec Ideal S512x64 φ₁) (b : FVec Ideal S64x4096 φ₂) (r : Fin 512) (j : Fin 4096) :
    matmul dot_S512x64_S64x4096_S512x4096_1_0_0_1_n_n none a b (constant S512x4096 .f32 0x00000000#32) (ix2 r j)
      = ∑ k : Fin 64, a (ix2 r k) * b (ix2 k j) := by
  simp only [matmul]
  rw [Ideal.matmul_constant_zero_apply, ← Equiv.sum_comp (contrEquiv1 dot_S512x64_S64x4096_S512x4096_1_0_0_1_n_n 64 rfl rfl).symm]
  refine Finset.sum_congr rfl fun k _ => ?_
  have hk := contrEquiv1_symm_val dot_S512x64_S64x4096_S512x4096_1_0_0_1_n_n 64 rfl rfl k
  have el : dot_S512x64_S64x4096_S512x4096_1_0_0_1_n_n.lhsIdx (ix2 r j) ((contrEquiv1 dot_S512x64_S64x4096_S512x4096_1_0_0_1_n_n 64 rfl rfl).symm k) = ix2 r k :=
    funext fun ax => Fin.ext (by
      match ax with
      | ⟨0, _⟩ => exact lhs_axis0 _ _
      | ⟨1, _⟩ => exact (lhs_axis1 _ _).trans hk)
  have er : dot_S512x64_S64x4096_S512x4096_1_0_0_1_n_n.rhsIdx (ix2 r j) ((contrEquiv1 dot_S512x64_S64x4096_S512x4096_1_0_0_1_n_n 64 rfl rfl).symm k) = ix2 k j :=
    funext fun ax => Fin.ext (by
      match ax with
      | ⟨0, _⟩ => exact (rhs_axis0 _ _).trans hk
      | ⟨1, _⟩ => exact rhs_axis1 _ _)
  rw [el, er]

/-! ## The body's intermediate vectors, named -/

variable (x0 : Vec Ideal S1x512x64 .f32) (x1 x2 : Vec Ideal S1x64 .f32)
variable (x3 : Vec Ideal S64x4096 .f32) (x4 : Vec Ideal S1x4096 .f32)

/-- The block's 512 rows. -/
def rows : FVec Ideal S512x64 .f32 := shapeCast S512x64 x0 shapeCasts_S1x512x64_S512x64

/-- The rows' means, as a column. -/
def meanCol : FVec Ideal S512x1 .f32 :=
  divf (shapeCast S512x1 (multiReduction .add [1] S512 (rows x0) 0x00000000#32 reduces_S512x64_S512 (.inl rfl) rfl)
    shapeCasts_S512_S512x1) (broadcast S512x1 (Scalar.ofBits .f32 0x42800000#32))

/-- The centred rows. -/
def cen : FVec Ideal S512x64 .f32 := subf (rows x0) (broadcastTo S512x64 (meanCol x0) broadcasts_S512x1_S512x64)

/-- The rows' variances, as a column. -/
def varCol : FVec Ideal S512x1 .f32 :=
  divf (shapeCast S512x1 (multiReduction .add [1] S512 (mulf (cen x0) (cen x0)) 0x00000000#32 reduces_S512x64_S512
    (.inl rfl) rfl) shapeCasts_S512_S512x1) (broadcast S512x1 (Scalar.ofBits .f32 0x42800000#32))

/-- The normalised, rescaled and shifted rows. -/
def xn : FVec Ideal S512x64 .f32 :=
  addf (mulf (mulf (cen x0) (broadcastTo S512x64 (rsqrt (addf (varCol x0)
      (broadcast S512x1 (Scalar.ofBits .f32 0x3727C5AC#32)))) broadcasts_S512x1_S512x64))
    (broadcastTo S512x64 (shapeCast S1x64 x1 shapeCasts_S1x64_S1x64) broadcasts_S1x64_S512x64))
    (broadcastTo S512x64 (shapeCast S1x64 x2 shapeCasts_S1x64_S1x64) broadcasts_S1x64_S512x64)

/-- The body's stored value is the product of the normalised rows with the matrix block, plus the bias row,
    viewed with a leading unit axis. -/
theorem pay_eq : k0_pay1 (F := Ideal) x0 x1 x2 x3 x4
    = shapeCast S1x512x4096 (addf
        (matmul dot_S512x64_S64x4096_S512x4096_1_0_0_1_n_n none (truncf .bf16 (xn x0 x1 x2) bitsLt_bf16_f32)
          (truncf .bf16 (shapeCast S64x4096 x3 shapeCasts_S64x4096_S64x4096) bitsLt_bf16_f32)
          (constant S512x4096 .f32 0x00000000#32))
        (broadcastTo S512x4096 (shapeCast S1x4096 x4 shapeCasts_S1x4096_S1x4096) broadcasts_S1x4096_S512x4096))
        shapeCasts_S512x4096_S1x512x4096 := rfl

/-! ## Each of them at an index -/

/-- Row `r` of the block, as a function of the feature. -/
abbrev blockRow (r : Fin 512) : Fin 64 → EReal := fun k => x0 (ix3 (0 : Fin 1) r k)

theorem rows_at (r : Fin 512) (k : Fin 64) : rows x0 (ix2 r k) = x0 (ix3 (0 : Fin 1) r k) :=
  shapeCast_1ab_ab_apply x0 _ r k

theorem meanCol_at (r : Fin 512) (u : Fin 1) : meanCol x0 (ix2 r u) = rowMean (blockRow x0 r) := by
  show Ideal.div (shapeCast S512x1 (multiReduction .add [1] S512 (rows x0) 0x00000000#32 reduces_S512x64_S512
      (.inl rfl) rfl) shapeCasts_S512_S512x1 (ix2 r u)) (Ideal.ofBits .f32 0x42800000#32)
    = Ideal.div (∑ k : Fin 64, x0 (ix3 (0 : Fin 1) r k)) c64
  refine congrArg (fun s => Ideal.div s (Ideal.ofBits .f32 0x42800000#32)) ?_
  refine (shapeCast_a_a1_apply _ _ r u).trans ?_
  refine (laneSum_at _ _ _ _ r).trans ?_
  exact Finset.sum_congr rfl fun k _ => rows_at x0 r k

theorem cen_at (r : Fin 512) (k : Fin 64) : cen x0 (ix2 r k) = centred (blockRow x0 r) k := by
  show rows x0 (ix2 r k) - broadcastTo S512x64 (meanCol x0) broadcasts_S512x1_S512x64 (ix2 r k)
    = x0 (ix3 (0 : Fin 1) r k) - rowMean (blockRow x0 r)
  rw [rows_at, broadcastTo_a1_ab_apply, meanCol_at]

theorem varCol_at (r : Fin 512) (u : Fin 1) : varCol x0 (ix2 r u) = rowVar (blockRow x0 r) := by
  show Ideal.div (shapeCast S512x1 (multiReduction .add [1] S512 (mulf (cen x0) (cen x0)) 0x00000000#32
      reduces_S512x64_S512 (.inl rfl) rfl) shapeCasts_S512_S512x1 (ix2 r u)) (Ideal.ofBits .f32 0x42800000#32)
    = Ideal.div (∑ k : Fin 64, centred (blockRow x0 r) k * centred (blockRow x0 r) k) c64
  refine congrArg (fun s => Ideal.div s (Ideal.ofBits .f32 0x42800000#32)) ?_
  refine (shapeCast_a_a1_apply _ _ r u).trans ?_
  refine (laneSum_at _ _ _ _ r).trans ?_
  refine Finset.sum_congr rfl fun k _ => ?_
  show cen x0 (ix2 r k) * cen x0 (ix2 r k) = _
  rw [cen_at]

theorem xn_at (r : Fin 512) (k : Fin 64) :
    xn x0 x1 x2 (ix2 r k)
      = normed (blockRow x0 r) (fun k' => x1 (ix2 (0 : Fin 1) k')) (fun k' => x2 (ix2 (0 : Fin 1) k')) k := by
  show cen x0 (ix2 r k)
        * broadcastTo S512x64 (rsqrt (addf (varCol x0) (broadcast S512x1 (Scalar.ofBits .f32 0x3727C5AC#32))))
            broadcasts_S512x1_S512x64 (ix2 r k)
        * broadcastTo S512x64 (shapeCast S1x64 x1 shapeCasts_S1x64_S1x64) broadcasts_S1x64_S512x64 (ix2 r k)
      + broadcastTo S512x64 (shapeCast S1x64 x2 shapeCasts_S1x64_S1x64) broadcasts_S1x64_S512x64 (ix2 r k)
    = centred (blockRow x0 r) k * Ideal.rsqrt (rowVar (blockRow x0 r) + eps) * x1 (ix2 (0 : Fin 1) k)
      + x2 (ix2 (0 : Fin 1) k)
  rw [cen_at, broadcastTo_a1_ab_apply, broadcastTo_1b_ab_apply, broadcastTo_1b_ab_apply, shapeCast_self,
    shapeCast_self]
  show _ * Ideal.rsqrt (varCol x0 (ix2 r (0 : Fin 1)) + Ideal.ofBits .f32 0x3727C5AC#32) * _ + _ = _
  rw [varCol_at]

/-- THE BODY AT AN ENTRY: entry `(r, c)` of the stored block. -/
theorem pay_apply (r : Fin 512) (j : Fin 4096) :
    k0_pay1 (F := Ideal) x0 x1 x2 x3 x4 (ix3 (0 : Fin 1) r j)
      = (∑ k : Fin 64, normed (blockRow x0 r) (fun k' => x1 (ix2 (0 : Fin 1) k'))
            (fun k' => x2 (ix2 (0 : Fin 1) k')) k * x3 (ix2 k j))
        + x4 (ix2 (0 : Fin 1) j) := by
  rw [pay_eq]
  refine (shapeCast_ab_1ab_apply _ _ (0 : Fin 1) r j).trans ?_
  show matmul dot_S512x64_S64x4096_S512x4096_1_0_0_1_n_n none (truncf .bf16 (xn x0 x1 x2) bitsLt_bf16_f32)
        (truncf .bf16 (shapeCast S64x4096 x3 shapeCasts_S64x4096_S64x4096) bitsLt_bf16_f32)
        (constant S512x4096 .f32 0x00000000#32) (ix2 r j)
      + broadcastTo S512x4096 (shapeCast S1x4096 x4 shapeCasts_S1x4096_S1x4096) broadcasts_S1x4096_S512x4096 (ix2 r j)
    = _
  rw [product_at, broadcastTo_1b_ab_apply, shapeCast_self, shapeCast_self]
  refine congrArg (· + x4 (ix2 (0 : Fin 1) j)) (Finset.sum_congr rfl fun k _ => ?_)
  show xn x0 x1 x2 (ix2 r k) * x3 (ix2 k j) = _
  rw [xn_at]

end Cert.FeatureEmbed.Body

end
-- ==== Proof.HostArrays.lean ====
/-
  The four arrays the host writes before the kernel region, read at an index.

  * the projection matrix, `64 × 4096`: an indicator `[k = f]` (two index grids compared, the comparison
    read as `1` or `0`) times `w[f, e]`, laid out on `(k, f, e)` and flattened to `(k, 64·f + e)`;
  * the bias row, `1 × 4096`: `pb + pe` flattened, entry `64·f + e` is `pb[f, e] + pe[f, e]`;
  * γ and β viewed as `1 × 64` rows.
-/
import proofs.«101138_j5446018531779_1_alg».proof.Proof.Gen.KernelIdeal.Frame
import Idealize.ShloMosaic.Lib.StableHlo.Run
import Idealize.ShloMosaic.Lib.StableHlo.Predicate
import Idealize.ShloMosaic.Lib.ValueLayout
import proofs.«101138_j5446018531779_1_alg».proof.Proof.RowNorm

noncomputable section

namespace Cert.FeatureEmbed.HostArrays

open Cert.KernelIdeal Cert.KernelIdeal.Gen
open Idealize.ShloMosaic Idealize.ShloMosaic.TcCoe Idealize.SL.Sem Idealize.ShloMosaic.StableHlo
open Idealize.ShloMosaic.ValueIdx Cert.FeatureEmbed

variable (m : (ℓ : Loc nD τ sig) → Buf (Elt Ideal) ℓ)

/-- The six argument arrays on core `c` as launched, at their literal types. -/
abbrev argX (c : Dev nD) : S4x4096x64.Idx → EReal := m ((c : Thread nD τ).loc main_arg0)
abbrev argG (c : Dev nD) : S64.Idx → EReal := m ((c : Thread nD τ).loc main_arg1)
abbrev argB (c : Dev nD) : S64.Idx → EReal := m ((c : Thread nD τ).loc main_arg2)
abbrev argW (c : Dev nD) : S64x64.Idx → EReal := m ((c : Thread nD τ).loc main_arg3)
abbrev argPb (c : Dev nD) : S64x64.Idx → EReal := m ((c : Thread nD τ).loc main_arg4)
abbrev argPe (c : Dev nD) : S64x64.Idx → EReal := m ((c : Thread nD τ).loc main_arg5)

/-- The `64 × 64` indicator of the diagonal: row index plus zero compared with column index, as a float. -/
def diag : FVec Ideal S64x64 .f32 :=
  uitofp .f32 (cmpi .eq (addi (iotaInDim S64x64 32 0) (broadcastInDim S64x64 ![] bcast_S_S64x64 (constantI S_ 32 0#32)))
    (iotaInDim S64x64 32 1))

/-- Two indices below 64 have equal 32-bit words exactly when they are equal. -/
theorem word_eq_iff (k f : Fin 64) : BitVec.ofNat 32 k.val + 0#32 = BitVec.ofNat 32 f.val ↔ k = f := by
  rw [BitVec.add_zero]
  constructor
  · intro h
    have h' := congrArg BitVec.toNat h
    simp only [BitVec.toNat_ofNat] at h'
    have hk := k.isLt
    have hf := f.isLt
    rw [Nat.mod_eq_of_lt (by omega), Nat.mod_eq_of_lt (by omega)] at h'
    exact Fin.ext h'
  · rintro rfl; rfl

/-- The indicator at `(k, f)` is `1` on the diagonal and `0` off it. -/
theorem diag_at (k f : Fin 64) : diag (ix2 k f) = if k = f then (1 : EReal) else 0 := by
  have hw : IntOp.cmpi .eq (BitVec.ofNat 32 k.val + 0#32) (BitVec.ofNat 32 f.val) = if k = f then 1#1 else 0#1 := by
    by_cases h : k = f
    · rw [if_pos h]; exact Predicate.cmpi_eq_iff.mpr ((word_eq_iff k f).mpr h)
    · rw [if_neg h]
      exact eq_zero_of_ne_one fun hc => h ((word_eq_iff k f).mp (Predicate.cmpi_eq_iff.mp hc))
  show (((IntOp.cmpi .eq (BitVec.ofNat 32 k.val + 0#32) (BitVec.ofNat 32 f.val)).toNat : ℝ) : EReal) = _
  rw [hw]
  by_cases h : k = f
  · rw [if_pos h, if_pos h]; simp
  · rw [if_neg h, if_neg h]; simp

/-- The projection matrix at `(k, c)`: the indicator of `k = c / 64` times `w[c / 64, c % 64]`. -/
theorem wmat_at (c : Dev nD) (k : Fin 64) (j : Fin 4096) :
    V m c main_v11 (ix2 k j) = diag (ix2 k (featOf j)) * argW m c (ix2 (featOf j) (slotOf j)) := by
  have e : (V m c main_v11 : S64x4096.Idx → EReal)
      = shapeCast S64x4096 (mulf
          (broadcastInDim S64x64x64 ![0, 1, 2] bcast_S64x64x1_S64x64x64_0_1_2
            (broadcastInDim S64x64x1 ![0, 1] bcast_S64x64_S64x64x1_0_1 diag))
          (broadcastInDim S64x64x64 ![0, 1, 2] bcast_S1x64x64_S64x64x64_0_1_2
            (broadcastInDim S1x64x64 ![1, 2] bcast_S64x64_S1x64x64_1_2 (argW m c))))
          shapeCasts_S64x64x64_S64x4096 := by
    dsimp only [Gen.V, Gen.hostOps0]; after_results; rfl
  have hj := j.isLt
  rw [e]
  refine (shapeCast_apply _ shapeCasts_S64x64x64_S64x4096 (ix2 k j) (ix3 k (featOf j) (slotOf j)) (by
    rw [Shape.rowMajor_val_three, Shape.rowMajor_val_two]
    show (k.val * 64 + j.val / 64) * 64 + j.val % 64 = k.val * 4096 + j.val
    omega)).trans ?_
  rw [mulf_apply]
  rw [broadcastInDim_apply _ bcast_S64x64x1_S64x64x64_0_1_2 _ (ix3 k (featOf j) (slotOf j))
    (ix3 k (featOf j) (0 : Fin 1)) (fun a => match a with
      | ⟨0, _⟩ => by show k.val = if (64 : Nat) = 1 then 0 else k.val; rw [if_neg (by decide)]
      | ⟨1, _⟩ => by show (featOf j).val = if (64 : Nat) = 1 then 0 else (featOf j).val; rw [if_neg (by decide)]
      | ⟨2, _⟩ => by show 0 = if (1 : Nat) = 1 then 0 else (slotOf j).val; rw [if_pos rfl])]
  rw [broadcastInDim_apply _ bcast_S64x64_S64x64x1_0_1 _ (ix3 k (featOf j) (0 : Fin 1))
    (ix2 k (featOf j)) (fun a => match a with
      | ⟨0, _⟩ => by show k.val = if (64 : Nat) = 1 then 0 else k.val; rw [if_neg (by decide)]
      | ⟨1, _⟩ => by show (featOf j).val = if (64 : Nat) = 1 then 0 else (featOf j).val; rw [if_neg (by decide)])]
  rw [broadcastInDim_apply _ bcast_S1x64x64_S64x64x64_0_1_2 _ (ix3 k (featOf j) (slotOf j))
    (ix3 (0 : Fin 1) (featOf j) (slotOf j)) (fun a => match a with
      | ⟨0, _⟩ => by show 0 = if (1 : Nat) = 1 then 0 else k.val; rw [if_pos rfl]
      | ⟨1, _⟩ => by show (featOf j).val = if (64 : Nat) = 1 then 0 else (featOf j).val; rw [if_neg (by decide)]
      | ⟨2, _⟩ => by show (slotOf j).val = if (64 : Nat) = 1 then 0 else (slotOf j).val; rw [if_neg (by decide)])]
  rw [broadcastInDim_apply _ bcast_S64x64_S1x64x64_1_2 _ (ix3 (0 : Fin 1) (featOf j) (slotOf j))
    (ix2 (featOf j) (slotOf j)) (fun a => match a with
      | ⟨0, _⟩ => by show (featOf j).val = if (64 : Nat) = 1 then 0 else (featOf j).val; rw [if_neg (by decide)]
      | ⟨1, _⟩ => by show (slotOf j).val = if (64 : Nat) = 1 then 0 else (slotOf j).val; rw [if_neg (by decide)])]

/-- The bias row at column `c`: `pb[c / 64, c % 64] + pe[c / 64, c % 64]`. -/
theorem bias_at (c : Dev nD) (u : Fin 1) (j : Fin 4096) :
    V m c main_v13 (ix2 u j)
      = argPb m c (ix2 (featOf j) (slotOf j)) + argPe m c (ix2 (featOf j) (slotOf j)) := by
  have e : (V m c main_v13 : S1x4096.Idx → EReal)
      = shapeCast S1x4096 (addf (F := Ideal) (s := S64x64) (φ := .f32) (argPb m c) (argPe m c))
          shapeCasts_S64x64_S1x4096 := by
    dsimp only [Gen.V, Gen.hostOps0]; after_results; rfl
  have hj := j.isLt
  have hu : u.val = 0 := by omega
  rw [e]
  refine (shapeCast_apply _ shapeCasts_S64x64_S1x4096 (ix2 u j) (ix2 (featOf j) (slotOf j)) (by
    rw [Shape.rowMajor_val_two, Shape.rowMajor_val_two]
    show j.val / 64 * 64 + j.val % 64 = u.val * 4096 + j.val
    omega)).trans ?_
  rfl

/-- γ viewed as a row. -/
theorem gamma_at (c : Dev nD) (u : Fin 1) (k : Fin 64) :
    V m c main_v14 (ix2 u k) = argG m c (ix1 k) := by
  have e : (V m c main_v14 : S1x64.Idx → EReal)
      = shapeCast S1x64 (argG m c) shapeCasts_S64_S1x64 := by
    dsimp only [Gen.V, Gen.hostOps0]; after_results; rfl
  rw [e]
  exact shapeCast_a_1a_apply _ _ u k

/-- β viewed as a row. -/
theorem beta_at (c : Dev nD) (u : Fin 1) (k : Fin 64) :
    V m c main_v15 (ix2 u k) = argB m c (ix1 k) := by
  have e : (V m c main_v15 : S1x64.Idx → EReal)
      = shapeCast S1x64 (argB m c) shapeCasts_S64_S1x64 := by
    dsimp only [Gen.V, Gen.hostOps0]; after_results; rfl
  rw [e]
  exact shapeCast_a_1a_apply _ _ u k

end Cert.FeatureEmbed.HostArrays

end
-- ==== Proof.Blocks.lean ====
/-
  From the kernel's blocks to its whole output array.

  The grid has `4 × 8` points; point `(b, i)` reads rows `512·i … 512·i + 511` of slab `b` of the first argument
  and the four small arrays whole, and writes rows `512·i …` of slab `b` of the output, all 4096 columns.
  What a point writes is the body's value at the point's input blocks; with each input block read where the
  output block's entry says, the projection matrix read as indicator times `w`, and the sum against the
  indicator collapsed to its one term, that value is `embed` of the six arguments at the entry's place in
  the whole array. The 32 output blocks tile the array (row `n` of slab `b` belongs to point `(b, n / 512)`),
  so the array ends holding `embed` everywhere.
-/
import proofs.«101138_j5446018531779_1_alg».proof.Proof.Gen.KernelIdeal.Value
import proofs.«101138_j5446018531779_1_alg».proof.Proof.BodyOps
import proofs.«101138_j5446018531779_1_alg».proof.Proof.HostArrays

noncomputable section

namespace Cert.FeatureEmbed.Blocks

open Cert.KernelIdeal Cert.KernelIdeal.Gen
open Idealize.ShloMosaic Idealize.ShloMosaic.TcCoe Idealize.SL.Sem Idealize.ShloMosaic.ValueIdx
open Idealize.ShloMosaic.Pipeline (Dat)
open Cert.FeatureEmbed Cert.FeatureEmbed.HostArrays

variable (m : (ℓ : Loc nD τ sig) → Buf (Elt Ideal) ℓ) (ρ : Dev nD → PrngReg)

/-- What the output array is to hold on core `c`: `embed` of the six arguments as launched. -/
def target (c : Dev nD) : S4x4096x4096.Idx → EReal :=
  embed (argX m c) (argG m c) (argB m c) (argW m c) (argPb m c) (argPe m c)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the 32 points: the row block of the first argument moves with the output's, on
    slab and row-block axis alike; the four small arrays sit at block zero; the output's block indices are a slab
    below 4, a row block below 8 and column block zero. -/
theorem idx_facts : ∀ t : Fin cfg0.N,
    win0_0.index t (0 : Fin 3) = win0_5.index t (0 : Fin 3)
    ∧ win0_0.index t (1 : Fin 3) = win0_5.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) ≤ 3 ∧ win0_5.index t (1 : Fin 3) ≤ 7 ∧ win0_5.index t (2 : Fin 3) = 0 :=
  (by decide +kernel : ∀ t : Fin grid0.N, _)

/-- Every (slab, row block) is some point's. -/
theorem idx_onto : ∀ (q0 : Fin 4) (q1 : Fin 8), ∃ t : Fin cfg0.N, win0_5.index t = ![q0.val, q1.val, 0] :=
  (by decide +kernel : ∀ (q0 : Fin 4) (q1 : Fin 8), ∃ t : Fin grid0.N, win0_5.index t = ![q0.val, q1.val, 0])

/-- The slab and the array row that entry `r` of point `t`'s output block lands on. -/
def slabOf (t : Fin cfg0.N) : Fin 4 := ⟨win0_5.index t (0 : Fin 3), by have := (idx_facts t).2.2.2.2.2.2.2.2.2.2.2.1; omega⟩
def rowOf (t : Fin cfg0.N) (r : Fin 512) : Fin 4096 :=
  ⟨win0_5.index t (1 : Fin 3) * 512 + r.val, by have := (idx_facts t).2.2.2.2.2.2.2.2.2.2.2.2.1; have := r.isLt; omega⟩

/-! ## Each input block read where the output block's entry says -/

theorem rowsBlock_at (c : Dev nD) (t : Fin cfg0.N) (r : Fin 512) (k : Fin 64) :
    iblk m c 0 t (ix3 (0 : Fin 1) r k) = argX m c (ix3 (slabOf t) (rowOf t r) k) := by
  obtain ⟨e0, e1, e2, -⟩ := idx_facts t
  show V m c main_arg0 (((cfg0.win 0).blk t).view.emb (ix3 (0 : Fin 1) r k)) = _
  rw [V_main_arg0]
  refine congrArg (argX m c) (funext fun a => Fin.ext ?_)
  match a with
  | ⟨0, _⟩ => show win0_0.index t (0 : Fin 3) * 1 + 1 * 0 = win0_5.index t (0 : Fin 3); omega
  | ⟨1, _⟩ => show win0_0.index t (1 : Fin 3) * 512 + 1 * r.val = win0_5.index t (1 : Fin 3) * 512 + r.val; omega
  | ⟨2, _⟩ => show win0_0.index t (2 : Fin 3) * 64 + 1 * k.val = k.val; omega

theorem gammaBlock_at (c : Dev nD) (t : Fin cfg0.N) (k : Fin 64) :
    iblk m c 1 t (ix2 (0 : Fin 1) k) = argG m c (ix1 k) := by
  obtain ⟨-, -, -, e0, e1, -⟩ := idx_facts t
  show V m c main_v14 (((cfg0.win 1).blk t).view.emb (ix2 (0 : Fin 1) k)) = _
  refine (congrArg (V m c main_v14) (funext fun a => Fin.ext ?_)).trans (HostArrays.gamma_at m c (0 : Fin 1) k)
  match a with
  | ⟨0, _⟩ => show win0_1.index t (0 : Fin 2) * 1 + 1 * 0 = 0; omega
  | ⟨1, _⟩ => show win0_1.index t (1 : Fin 2) * 64 + 1 * k.val = k.val; omega

theorem betaBlock_at (c : Dev nD) (t : Fin cfg0.N) (k : Fin 64) :
    iblk m c 2 t (ix2 (0 : Fin 1) k) = argB m c (ix1 k) := by
  obtain ⟨-, -, -, -, -, e0, e1, -⟩ := idx_facts t
  show V m c main_v15 (((cfg0.win 2).blk t).view.emb (ix2 (0 : Fin 1) k)) = _
  refine (congrArg (V m c main_v15) (funext fun a => Fin.ext ?_)).trans (HostArrays.beta_at m c (0 : Fin 1) k)
  match a with
  | ⟨0, _⟩ => show win0_2.index t (0 : Fin 2) * 1 + 1 * 0 = 0; omega
  | ⟨1, _⟩ => show win0_2.index t (1 : Fin 2) * 64 + 1 * k.val = k.val; omega

theorem matBlock_at (c : Dev nD) (t : Fin cfg0.N) (k : Fin 64) (j : Fin 4096) :
    iblk m c 3 t (ix2 k j)
      = HostArrays.diag (ix2 k (featOf j)) * argW m c (ix2 (featOf j) (slotOf j)) := by
  obtain ⟨-, -, -, -, -, -, -, e0, e1, -⟩ := idx_facts t
  show V m c main_v11 (((cfg0.win 3).blk t).view.emb (ix2 k j)) = _
  refine (congrArg (V m c main_v11) (funext fun a => Fin.ext ?_)).trans (HostArrays.wmat_at m c k j)
  match a with
  | ⟨0, _⟩ => show win0_3.index t (0 : Fin 2) * 64 + 1 * k.val = k.val; omega
  | ⟨1, _⟩ => show win0_3.index t (1 : Fin 2) * 4096 + 1 * j.val = j.val; omega

theorem biasBlock_at (c : Dev nD) (t : Fin cfg0.N) (j : Fin 4096) :
    iblk m c 4 t (ix2 (0 : Fin 1) j)
      = argPb m c (ix2 (featOf j) (slotOf j))
        + argPe m c (ix2 (featOf j) (slotOf j)) := by
  obtain ⟨-, -, -, -, -, -, -, -, -, e0, e1, -⟩ := idx_facts t
  show V m c main_v13 (((cfg0.win 4).blk t).view.emb (ix2 (0 : Fin 1) j)) = _
  refine (congrArg (V m c main_v13) (funext fun a => Fin.ext ?_)).trans (HostArrays.bias_at m c (0 : Fin 1) j)
  match a with
  | ⟨0, _⟩ => show win0_4.index t (0 : Fin 2) * 1 + 1 * 0 = 0; omega
  | ⟨1, _⟩ => show win0_4.index t (1 : Fin 2) * 4096 + 1 * j.val = j.val; omega

/-- Where entry `(0, r, j)` of point `t`'s output block sits in the whole array. -/
theorem outBlock_emb (t : Fin cfg0.N) (r : Fin 512) (j : Fin 4096) :
    ((cfg0.win 5).blk t).view.emb (ix3 (0 : Fin 1) r j) = ix3 (slabOf t) (rowOf t r) j := by
  have e2 := (idx_facts t).2.2.2.2.2.2.2.2.2.2.2.2.2
  funext a; apply Fin.ext
  match a with
  | ⟨0, _⟩ => show win0_5.index t (0 : Fin 3) * 1 + 1 * 0 = win0_5.index t (0 : Fin 3); omega
  | ⟨1, _⟩ => show win0_5.index t (1 : Fin 3) * 512 + 1 * r.val = win0_5.index t (1 : Fin 3) * 512 + r.val; omega
  | ⟨2, _⟩ => show win0_5.index t (2 : Fin 3) * 4096 + 1 * j.val = j.val; omega

/-! ## What a point writes back -/

/-- The body's value at point `t`'s input blocks, at entry `(0, r, j)`, is `embed` at that entry's place. -/
theorem point_value (c : Dev nD) (t : Fin cfg0.N) (r : Fin 512) (j : Fin 4096) :
    k0_pay1 (F := Ideal) (iblk m c 0 t) (iblk m c 1 t) (iblk m c 2 t) (iblk m c 3 t) (iblk m c 4 t) (ix3 (0 : Fin 1) r j)
      = target m c (ix3 (slabOf t) (rowOf t r) j) := by
  refine (Body.pay_apply (iblk m c 0 t) (iblk m c 1 t) (iblk m c 2 t) (iblk m c 3 t) (iblk m c 4 t) r j).trans ?_
  have hrow : Body.blockRow (iblk m c 0 t) r
      = fun k => argX m c (ix3 (slabOf t) (rowOf t r) k) :=
    funext fun k => rowsBlock_at m c t r k
  have hγ : (fun k' => iblk m c 1 t (ix2 (0 : Fin 1) k')) = fun k' => argG m c (ix1 k') :=
    funext fun k => gammaBlock_at m c t k
  have hβ : (fun k' => iblk m c 2 t (ix2 (0 : Fin 1) k')) = fun k' => argB m c (ix1 k') :=
    funext fun k => betaBlock_at m c t k
  rw [hrow, hγ, hβ, biasBlock_at]
  have hsum : ∑ k : Fin 64, normed (fun k => argX m c (ix3 (slabOf t) (rowOf t r) k))
        (fun k' => argG m c (ix1 k')) (fun k' => argB m c (ix1 k')) k
        * iblk m c 3 t (ix2 k j)
      = normed (fun k => argX m c (ix3 (slabOf t) (rowOf t r) k))
        (fun k' => argG m c (ix1 k')) (fun k' => argB m c (ix1 k')) (featOf j)
        * argW m c (ix2 (featOf j) (slotOf j)) := by
    refine (Finset.sum_congr rfl fun k _ => ?_).trans
      (sum_diag _ (fun k => HostArrays.diag (ix2 k (featOf j))) (featOf j) _ fun k => HostArrays.diag_at k (featOf j))
    rw [matBlock_at]
  rw [hsum]
  rfl

/-- WHAT POINT `t` WRITES BACK is block `t` of `target`. -/
theorem flushed_eq (c : Dev nD) (t : Fin cfg0.N) :
    (dats m 0 c).flushed 5 t = ((cfg0.win 5).blk t).view.read (Elt Ideal) (target m c) := by
  rw [Value.flushed5]
  unfold out0_5
  rw [View.canon_unit_zero hz3]
  simp only [View.ld_unit_zero (S := S1x512x64) hz3, View.ld_unit_zero (S := S1x64) hz2,
    View.ld_unit_zero (S := S64x4096) hz2, View.ld_unit_zero (S := S1x4096) hz2]
  refine funext fun (y : S1x512x4096.Idx) => ?_
  have e : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  show k0_pay1 (F := Ideal) (iblk m c 0 t) (iblk m c 1 t) (iblk m c 2 t) (iblk m c 3 t) (iblk m c 4 t) y
    = target m c (((cfg0.win 5).blk t).view.emb y)
  have hplace : ix3 (slabOf t) (rowOf t (y 1)) (y 2) = ((cfg0.win 5).blk t).view.emb y :=
    (outBlock_emb t (y 1) (y 2)).symm.trans (congrArg ((cfg0.win 5).blk t).view.emb e.symm)
  exact (congrArg (k0_pay1 (F := Ideal) (iblk m c 0 t) (iblk m c 1 t) (iblk m c 2 t) (iblk m c 3 t) (iblk m c 4 t)) e).trans
    ((point_value m c t (y 1) (y 2)).trans (congrArg (target m c) hplace))

/-! ## The blocks tile the array -/

/-- An index of the array is in point `t`'s block iff each coordinate is in the block's range on its axis. -/
theorem mem_blk (t : Fin cfg0.N) (i : S4x4096x4096.Idx) :
    i ∈ ((cfg0.win 5).blk t).view.set ↔ ∀ a : Fin 3, win0_5.index t a * S1x512x4096.size a ≤ (i a).val
      ∧ (i a).val < win0_5.index t a * S1x512x4096.size a + S1x512x4096.size a := by
  show i ∈ ((View.whole main_v16).slice (win0_5.rect t)).set ↔ _
  rw [View.set_slice_whole, Rect.mem_set_unit]
  exact Iff.rfl

/-- Every index is in the block of the point of its slab and its row's block of 512. -/
theorem cover (i : S4x4096x4096.Idx) :
    ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 4096 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 4096 ≤ (i 2).val ∧ (i 2).val < win0_5.index t (2 : Fin 3) * 4096 + 4096; omega

/-- THE ARRAY after the run is `target`. -/
theorem final (c : Dev nD) : (dats m 0 c).arrAt 5 cfg0.N = target m c :=
  (dats m 0 c).arrAt_eq_of_cover 5 (target m c) (fun t _ => flushed_eq m c t) cover

/-- The kernel's run with its output array named: `embed` of the arguments, the arguments unchanged. -/
theorem run : θ_run defs (onTc (τ := τ) (main (F := Ideal))) ⟨m, fun _ => 0, ρ⟩ fun r => ∀ c : Dev nD,
      r.2.mem ((c : Thread nD τ).loc main_v16) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.FeatureEmbed.Blocks

end
-- ==== Proof.lean ====
/-
  A per-feature embedding after a layer normalisation, two ways.

  Both programs normalise each 64-feature row of `x[4, 4096, 64]` (mean, variance, reciprocal square root of
  variance plus ε, rescale by γ, shift by β) with the same words for 64 and ε. The reference then multiplies
  feature `f`'s entry by `w[f, ·]`, adds `pb[f, ·] + pe[f, ·]` and flattens `(f, e)` to column `64·f + e`. The
  kernel instead multiplies the normalised `512 × 64` row block into a `64 × 4096` matrix the host prepared,
  whose entry `(k, 64·f + e)` is `[k = f] · w[f, e]`, and adds the flattened bias row; its two factors are
  narrowed before the product, which changes nothing on extended reals.

  So at every output entry the kernel holds `∑_k xn_k · ([k = f] · w[f, e]) + bias`, and the sum keeps the one
  term `k = f` (`sum_diag`: zero times anything is zero on the extended reals, so no finiteness is used and the
  precondition is never opened). Both results are `embed` of the six arguments (RowNorm.lean): the
  reference's by reading its operations one at a time (Reference.lean), the kernel's by reading the body at an
  entry (BodyOps.lean), the host-prepared arrays at an index (HostArrays.lean), and the 32 blocks that tile
  the output (Blocks.lean). Nothing was rewritten by the idealisation, so the fourth claim is trivial.
-/
import proofs.«101138_j5446018531779_1_alg».proof.Defs
import proofs.«101138_j5446018531779_1_alg».proof.Proof.Gen.Kernel
import proofs.«101138_j5446018531779_1_alg».proof.Proof.Gen.Kernel.Skeleton
import proofs.«101138_j5446018531779_1_alg».proof.Proof.Gen.Kernel.Launch
import proofs.«101138_j5446018531779_1_alg».proof.Proof.Gen.Kernel.Points
import proofs.«101138_j5446018531779_1_alg».proof.Proof.Gen.Kernel.Frame
import proofs.«101138_j5446018531779_1_alg».proof.Proof.Gen.KernelIdeal
import proofs.«101138_j5446018531779_1_alg».proof.Proof.Gen.KernelIdeal.Skeleton
import proofs.«101138_j5446018531779_1_alg».proof.Proof.Gen.KernelIdeal.Launch
import proofs.«101138_j5446018531779_1_alg».proof.Proof.Gen.KernelIdeal.Points
import proofs.«101138_j5446018531779_1_alg».proof.Proof.Gen.KernelIdeal.Frame
import proofs.«101138_j5446018531779_1_alg».proof.Proof.Gen.ReferenceIdeal
import proofs.«101138_j5446018531779_1_alg».proof.Proof.Gen.Pre_finite_inputs
import proofs.«101138_j5446018531779_1_alg».proof.Proof.Gen.KernelIdeal.Value
import proofs.«101138_j5446018531779_1_alg».proof.Proof.Gen.ReferenceIdeal.Run
import proofs.«101138_j5446018531779_1_alg».proof.Proof.Gen.ReferenceIdeal.Read
import proofs.«101138_j5446018531779_1_alg».proof.Proof.Reference
import proofs.«101138_j5446018531779_1_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does the kernel read on extended reals. -/
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the six arguments both programs end with `embed` of them in their result. -/
theorem algebraic : Cert.algebraic_KernelIdeal_ReferenceIdeal := by
  intro m ρ m' ρ' _ hagree
  refine ⟨fun c => Cert.FeatureEmbed.Blocks.target m c, Cert.FeatureEmbed.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.FeatureEmbed.Reference.result_eq, (hagree c).1,
    (hagree c).2.1, (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
